-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S512x11008 32) (main_arg2 : FVec F S11008x1 .f32) (main_arg3 : FVec F S11008x1 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg3
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S512x11008 : Shape := ⟨2, ![512, 11008]⟩
abbrev S11008x1 : Shape := ⟨2, ![11008, 1]⟩
abbrev S11008 : Shape := ⟨1, ![11008]⟩
abbrev S8192x4096 : Shape := ⟨2, ![8192, 4096]⟩
abbrev S_ : Shape := ⟨0, ![]⟩
abbrev S512x11264 : Shape := ⟨2, ![512, 11264]⟩
abbrev S11264x1 : Shape := ⟨2, ![11264, 1]⟩
abbrev S11264 : Shape := ⟨1, ![11264]⟩
abbrev S1x11264 : Shape := ⟨2, ![1, 11264]⟩
abbrev S8192 : Shape := ⟨1, ![8192]⟩
abbrev S8192x1 : Shape := ⟨2, ![8192, 1]⟩
abbrev S8192x2x256x8 : Shape := ⟨4, ![8192, 2, 256, 8]⟩
abbrev S8192x2x8x256 : Shape := ⟨4, ![8192, 2, 8, 256]⟩
abbrev S8192x11008 : Shape := ⟨2, ![8192, 11008]⟩
abbrev S1024x2048 : Shape := ⟨2, ![1024, 2048]⟩
abbrev S256x1024 : Shape := ⟨2, ![256, 1024]⟩
abbrev S1x1024 : Shape := ⟨2, ![1, 1024]⟩
abbrev S1024x1 : Shape := ⟨2, ![1024, 1]⟩
abbrev S1024x1024 : Shape := ⟨2, ![1024, 1024]⟩
abbrev S1024x256 : Shape := ⟨2, ![1024, 256]⟩
abbrev S4x2048x11008 : Shape := ⟨3, ![4, 2048, 11008]⟩

abbrev nBuf : Space → Nat
  | .hbm => 33
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S8192x4096, .f32⟩
  | .hbm, ⟨6, _⟩ => ⟨S_, .i32⟩
  | .hbm, ⟨7, _⟩ => ⟨S_, .i32⟩
  | .hbm, ⟨8, _⟩ => ⟨S512x11264, .i32⟩
  | .hbm, ⟨9, _⟩ => ⟨S_, .i32⟩
  | .hbm, ⟨10, _⟩ => ⟨S_, .f32⟩
  | .hbm, ⟨11, _⟩ => ⟨S11264x1, .f32⟩
  | .hbm, ⟨12, _⟩ => ⟨S_, .i32⟩
  | .hbm, ⟨13, _⟩ => ⟨S_, .f32⟩
  | .hbm, ⟨14, _⟩ => ⟨S11264x1, .f32⟩
  | .hbm, ⟨15, _⟩ => ⟨S_, .i32⟩
  | .hbm, ⟨16, _⟩ => ⟨S_, .f32⟩
  | .hbm, ⟨17, _⟩ => ⟨S11264, .f32⟩
  | .hbm, ⟨18, _⟩ => ⟨S11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S1x11264, .f32⟩
  | .hbm, ⟨23, _⟩ => ⟨S8192x4096, .bf16⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x2x256x8, .bf16⟩
  | .hbm, ⟨29, _⟩ => ⟨S8192x2x8x256, .bf16⟩
  | .hbm, ⟨30, _⟩ => ⟨S8192x4096, .bf16⟩
  | .hbm, ⟨31, _⟩ => ⟨S8192x11008, .f32⟩
  | .hbm, ⟨32, _⟩ => ⟨S4x2048x11008, .f32⟩
  | .local _ .vmem, ⟨0, _⟩ => ⟨S1024x2048, .bf16⟩
  | .local _ .vmem, ⟨1, _⟩ => ⟨S1024x2048, .bf16⟩
  | .local _ .vmem, ⟨2, _⟩ => ⟨S256x1024, .i32⟩
  | .local _ .vmem, ⟨3, _⟩ => ⟨S256x1024, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1, .f32⟩
  | .local _ .vmem, ⟨11, _⟩ => ⟨S1024x1, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_call3_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 11, 2], ![false, false, false]⟩

def k0_cond2 (i : grid0.Coords) : BitVec 1 :=
  let arg2 : BitVec 32 := BitVec.ofNat 32 (i 2).val
  let c1_i32 : BitVec 32 := 1#32
  let v81 : BitVec 1 := Scalar.cmpi .eq arg2 c1_i32
  let v82 : BitVec 32 := Scalar.extui v81
  let c0_i32_30 : BitVec 32 := 0#32
  let v83 : BitVec 1 := Scalar.cmpi .ne v82 c0_i32_30
  v83

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  pads_S512x11008_S512x11264_000_02560 : S512x11008.Pads (![0, 0] : Fin 2 → Nat) ![0, 256] ![0, 0] S512x11264
  h_S_ : 0 < S_.numel
  pads_S11008x1_S11264x1_02560_000 : S11008x1.Pads (![0, 0] : Fin 2 → Nat) ![256, 0] ![0, 0] S11264x1
  pads_S11008_S11264_02560 : S11008.Pads (![0] : Fin 1 → Nat) ![256] ![0] S11264
  shapeCasts_S11264x1_S11264 : S11264x1.ShapeCasts S11264
  bcast_S11264_S1x11264_1 : S11264.BroadcastsInDim S1x11264 (![1] : Fin 1 → Fin S1x11264.rank)
  bitsLt_bf16_f32 : FTy.bits .bf16 < FTy.bits .f32
  reducesTo_S8192x4096_S8192_d1 : S8192x4096.ReducesTo [1] S8192
  bcast_S8192_S8192x1_0 : S8192.BroadcastsInDim S8192x1 (![0] : Fin 1 → Fin S8192x1.rank)
  shapeCasts_S8192x4096_S8192x2x256x8 : S8192x4096.ShapeCasts S8192x2x256x8
  transposes_S8192x2x256x8_S8192x2x8x256_0_1_3_2 : S8192x2x256x8.Transposes [0, 1, 3, 2] S8192x2x8x256
  shapeCasts_S8192x2x8x256_S8192x4096 : S8192x2x8x256.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2048_S1024x256_0_0 : ∀ a, (![0, 0] : Fin 2 → Nat) a + S1024x256.size a ≤ S1024x2048.size a
  h_S1024x256 : 0 < S1024x256.numel
  shapeCasts_S1024x256_S1024x256 : S1024x256.ShapeCasts S1024x256
  inb_S1024x2048_S1024x256_0_256 : ∀ a, (![0, 256] : Fin 2 → Nat) a + S1024x256.size a ≤ S1024x2048.size a
  inb_S1024x2048_S1024x256_0_512 : ∀ a, (![0, 512] : Fin 2 → Nat) a + S1024x256.size a ≤ S1024x2048.size a
  inb_S1024x2048_S1024x256_0_768 : ∀ a, (![0, 768] : Fin 2 → Nat) a + S1024x256.size a ≤ S1024x2048.size a
  inb_S1024x2048_S1024x256_0_1024 : ∀ a, (![0, 1024] : Fin 2 → Nat) a + S1024x256.size a ≤ S1024x2048.size a
  inb_S1024x2048_S1024x256_0_1280 : ∀ a, (![0, 1280] : Fin 2 → Nat) a + S1024x256.size a ≤ S1024x2048.size a
  inb_S1024x2048_S1024x256_0_1536 : ∀ a, (![0, 1536] : Fin 2 → Nat) a + S1024x256.size a ≤ S1024x2048.size a
  inb_S1024x2048_S1024x256_0_1792 : ∀ a, (![0, 1792] : Fin 2 → Nat) a + S1024x256.size a ≤ S1024x2048.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S8192x11008_S4x2048x11008 : S8192x11008.ShapeCasts S4x2048x11008
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S512x11264.size a
  hwx0_1 : ∀ i : grid0.Coords, EltTy.bits .i32 = 32 ∨ (Rect.block (s := S512x11264) S256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x11264.size a
  hwx0_3 : ∀ i : grid0.Coords, EltTy.bits .f32 = 32 ∨ (Rect.block (s := S1x11264) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x11264.size a
  hwx0_4 : ∀ i : grid0.Coords, EltTy.bits .f32 = 32 ∨ (Rect.block (s := S1x11264) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x1024.size a < S8192x11008.size a
  hwx0_6 : ∀ i : grid0.Coords, EltTy.bits .f32 = 32 ∨ (Rect.unit (s := S8192x11008) (fun a => cc0_transform_6 i a * S1024x1024.size a) (fun a => (Pipeline.Clip.of (cc0_transform_6 i a) (S1024x1024.size a) (S8192x11008.size a)).extent (S1024x1024.size a)) fun a => Pipeline.Clip.inb (Pipeline.Clip.ok_of (hstart0_6 i a))).WholeWords (EltTy.packing .f32)
  hwxs0_6 : ∀ i : grid0.Coords, EltTy.bits .f32 = 32 ∨ (Rect.unit (s := S1024x1024) (fun _ => 0) (fun a => (Pipeline.Clip.of (cc0_transform_6 i a) (S1024x1024.size a) (S8192x11008.size a)).extent (S1024x1024.size a)) fun a => (Nat.zero_add _).trans_le (Pipeline.Clip.extent_le (Pipeline.Clip.ok_of (hstart0_6 i a)))).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v16) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpecClip (Memref.whole main_v17) S1024x1024.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S11008x1 : Shape := ⟨2, ![11008, 1]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S1x11008 : Shape := ⟨2, ![1, 11008]⟩
abbrev S4x2048x11008 : Shape := ⟨3, ![4, 2048, 11008]⟩
abbrev S1x1x11008 : Shape := ⟨3, ![1, 1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S4096x11008, .f32⟩
  | .hbm, ⟨19, _⟩ => ⟨S11008, .f32⟩
  | .hbm, ⟨20, _⟩ => ⟨S1x11008, .f32⟩
  | .hbm, ⟨21, _⟩ => ⟨S4096x11008, .f32⟩
  | .hbm, ⟨22, _⟩ => ⟨S4096x11008, .f32⟩
  | .hbm, ⟨23, _⟩ => ⟨S11008, .f32⟩
  | .hbm, ⟨24, _⟩ => ⟨S1x11008, .f32⟩
  | .hbm, ⟨25, _⟩ => ⟨S4096x11008, .f32⟩
  | .hbm, ⟨26, _⟩ => ⟨S4096x11008, .f32⟩
  | .hbm, ⟨27, _⟩ => ⟨S4x2048x11008, .f32⟩
  | .hbm, ⟨28, _⟩ => ⟨S1x1x11008, .f32⟩
  | .hbm, ⟨29, _⟩ => ⟨S4x2048x11008, .f32⟩
  | .hbm, ⟨30, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  shapeCasts_S11008x1_S11008 : S11008x1.ShapeCasts S11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S4096x11008_S4x2048x11008_2_0_01_1_n_n_wf : DotDims.WF S4x2048x4096 S4096x11008 S4x2048x11008 [2] [0] [0, 1] [1] [] []

variable [Facts₀]

def dot_S4x2048x4096_S4096x11008_S4x2048x11008_2_0_01_1_n_n : DotDims S4x2048x4096 S4096x11008 S4x2048x11008 where
  lhsContracting := [2]
  rhsContracting := [0]
  lhsNonContracting := [0, 1]
  rhsNonContracting := [1]
  lhsBatch := []
  rhsBatch := []
  wf := dot_S4x2048x4096_S4096x11008_S4x2048x11008_2_0_01_1_n_n_wf

class Facts : Prop extends Facts₀ where

variable [Facts]
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.Spec.lean ====
/-
  The mathematics of the 4-bit dequantised linear layer, stated once over the argument arrays.

  A packed word holds eight 4-bit weights; nibble s of a word w is (w >> 4s) & 15 read as a number. Weight row
  i = 8R + s of column o is nibble s of the packed word at (R, o). The layer is
      out[b, t, o] = ∑_i x[b, t, i] · (wq[i, o] · scale[o] − zero[o]) + bias[o]            (`layer`)
  and the folded form the tiled computation produces is
      out[m, o] = (acc[m, o] · scale[o] − rowsum[m] · zero[o]) + bias[o]                    (`folded`)
  with m = 2048 b + t, rowsum[m] = 0 + ∑_i x[m, i], and acc the sixteen nibble-plane products
  ∑_r x[m, 2048 k + 8 r + s] · nibble s of the word at (256 k + r, o), added onto 0 in the order k = 0, 1 and,
  inside each k, s = 0 … 7.
-/
import Idealize.ShloMosaic.Lib.ValueIdx

noncomputable section

open scoped BigOperators

namespace Cert.QLinear

open Idealize.ShloMosaic Idealize.ShloMosaic.ValueIdx

/-- Nibble `s` of a packed word, as a number: the word shifted right (arithmetically) by 4s bits, masked to four bits. -/
def nibble (w : BitVec 32) (s : Fin 8) : EReal :=
  ((((w.sshiftRight' (BitVec.ofNat 32 (4 * s.val))) &&& 15#32).toInt : ℝ) : EReal)

/-- A nibble is a real number. -/
theorem nibble_real (w : BitVec 32) (s : Fin 8) : ∃ r : ℝ, nibble w s = (r : EReal) := ⟨_, rfl⟩

/-- The weight at row i = 8R + s, column o: nibble s of the packed word at (R, o). -/
def wq (q : (⟨2, ![512, 11008]⟩ : Shape).Idx → BitVec 32) (i : Fin 4096) (o : Fin 11008) : EReal :=
  nibble (q (ix2 (⟨i.val / 8, by have := i.isLt; omega⟩ : Fin 512) o)) (⟨i.val % 8, Nat.mod_lt _ (by decide)⟩ : Fin 8)

/-- The layer: the input row against the dequantised weight column, plus the bias. -/
def layer (x : (⟨3, ![4, 2048, 4096]⟩ : Shape).Idx → EReal) (q : (⟨2, ![512, 11008]⟩ : Shape).Idx → BitVec 32)
    (sc zr : (⟨2, ![11008, 1]⟩ : Shape).Idx → EReal) (b : (⟨1, ![11008]⟩ : Shape).Idx → EReal) :
    (⟨3, ![4, 2048, 11008]⟩ : Shape).Idx → EReal :=
  fun j => (∑ i : Fin 4096, x (ix3 (j 0) (j 1) i) * (wq q i (j 2) * sc (ix2 (j 2) (0 : Fin 1)) - zr (ix2 (j 2) (0 : Fin 1))))
    + b (ix1 (j 2))

/-- The input with batch and sequence flattened: row m = 2048 b + t. -/
def rows (x : (⟨3, ![4, 2048, 4096]⟩ : Shape).Idx → EReal) (m : Fin 8192) (i : Fin 4096) : EReal :=
  x (ix3 (⟨m.val / 2048, by have := m.isLt; omega⟩ : Fin 4) (⟨m.val % 2048, Nat.mod_lt _ (by decide)⟩ : Fin 2048) i)

/-- One nibble plane's product: plane s of K-block k, row m against column o. -/
def plane (x : (⟨3, ![4, 2048, 4096]⟩ : Shape).Idx → EReal) (q : (⟨2, ![512, 11008]⟩ : Shape).Idx → BitVec 32)
    (m : Fin 8192) (o : Fin 11008) (k : Fin 2) (s : Fin 8) : EReal :=
  ∑ r : Fin 256, rows x m (⟨k.val * 2048 + r.val * 8 + s.val, by have := k.isLt; have := r.isLt; have := s.isLt; omega⟩ : Fin 4096)
    * nibble (q (ix2 (⟨k.val * 256 + r.val, by have := k.isLt; have := r.isLt; omega⟩ : Fin 512) o)) s

/-- One K-block's eight planes added onto `a`, in order. -/
def kblock (x : (⟨3, ![4, 2048, 4096]⟩ : Shape).Idx → EReal) (q : (⟨2, ![512, 11008]⟩ : Shape).Idx → BitVec 32)
    (m : Fin 8192) (o : Fin 11008) (k : Fin 2) (a : EReal) : EReal :=
  a + plane x q m o k 0 + plane x q m o k 1 + plane x q m o k 2 + plane x q m o k 3
    + plane x q m o k 4 + plane x q m o k 5 + plane x q m o k 6 + plane x q m o k 7

/-- The accumulator after both K-blocks, started from zero. -/
def acc (x : (⟨3, ![4, 2048, 4096]⟩ : Shape).Idx → EReal) (q : (⟨2, ![512, 11008]⟩ : Shape).Idx → BitVec 32)
    (m : Fin 8192) (o : Fin 11008) : EReal :=
  kblock x q m o 1 (kblock x q m o 0 0)

/-- The row sum of the input, onto zero. -/
def rowsum (x : (⟨3, ![4, 2048, 4096]⟩ : Shape).Idx → EReal) (m : Fin 8192) : EReal :=
  0 + ∑ i : Fin 4096, rows x m i

/-- The folded form at row m, column o. -/
def folded (x : (⟨3, ![4, 2048, 4096]⟩ : Shape).Idx → EReal) (q : (⟨2, ![512, 11008]⟩ : Shape).Idx → BitVec 32)
    (sc zr : (⟨2, ![11008, 1]⟩ : Shape).Idx → EReal) (b : (⟨1, ![11008]⟩ : Shape).Idx → EReal)
    (m : Fin 8192) (o : Fin 11008) : EReal :=
  (acc x q m o * sc (ix2 o (0 : Fin 1)) - rowsum x m * zr (ix2 o (0 : Fin 1))) + b (ix1 o)

/-- The folded form as the rank-3 result array: entry (b, t, o) is row 2048 b + t, column o. -/
def foldedOut (x : (⟨3, ![4, 2048, 4096]⟩ : Shape).Idx → EReal) (q : (⟨2, ![512, 11008]⟩ : Shape).Idx → BitVec 32)
    (sc zr : (⟨2, ![11008, 1]⟩ : Shape).Idx → EReal) (b : (⟨1, ![11008]⟩ : Shape).Idx → EReal) :
    (⟨3, ![4, 2048, 11008]⟩ : Shape).Idx → EReal :=
  fun j => folded x q sc zr b
    (⟨(j 0).val * 2048 + (j 1).val, by have h0 : (j 0).val < 4 := (j 0).isLt; have h1 : (j 1).val < 2048 := (j 1).isLt; omega⟩ : Fin 8192) (j 2)

end Cert.QLinear

end
-- ==== Proof.Payloads.lean ====
/-
  The body's arithmetic read at one entry (p, q) of the 1024 × 1024 tile, at the ideal values.

  Each of the eight matrix-unit products is a plain [1024, 256] × [256, 1024] product of a column chunk of the input
  tile with one nibble plane of the packed tile: ∑_r chunk[p, r] · nibble s of the word at (r, q). The accumulator
  update adds three, four and one of them onto what it held; the last step is acc · scale − rowsum · zero + bias with
  the three per-column rows and the per-row column broadcast over the tile.
-/
import proofs.«423083_j23587960390015_3_alg».proof.Proof.Gen.KernelIdeal.Skeleton
import proofs.«423083_j23587960390015_3_alg».proof.Proof.LibPlainDot
import proofs.«423083_j23587960390015_3_alg».proof.Proof.Spec
import Idealize.ShloMosaic.Lib.Pipeline.Value
import Idealize.ShloMosaic.Lib.ValueLayout
import Idealize.ShloMosaic.PureOps.Ideal.Laws

noncomputable section

open scoped BigOperators

namespace Cert.QLinear.Kern

open Idealize.ShloMosaic Idealize.ShloMosaic.ValueIdx
open Cert.KernelIdeal Cert.KernelIdeal.Gen

/-- The vector unit's shift by 4s bits, the mask and the conversion give nibble s of the word. -/
theorem nibble_word (w : BitVec 32) (s : Fin 8) :
    FloatOps.sitofp (F := Ideal) .bf16 (IntOp.andi (IntOp.shrsi .vector w (BitVec.ofNat 32 (4 * s.val))) 15#32)
      = Cert.QLinear.nibble w s := by
  have hlt : (BitVec.ofNat 32 (4 * s.val)).toNat < 32 := by
    have hs := s.isLt
    rw [BitVec.toNat_ofNat]
    have : 4 * s.val % 2 ^ 32 = 4 * s.val := Nat.mod_eq_of_lt (by omega)
    omega
  unfold Cert.QLinear.nibble IntOp.shrsi IntOp.andi
  rw [if_pos hlt]
  rfl

/-- One product: a column chunk of the input tile against nibble plane `s` of the packed tile. -/
def chunkDot (xc : S1024x256.Idx → EReal) (qb : S256x1024.Idx → BitVec 32) (s : Fin 8) (p q : Fin 1024) : EReal :=
  ∑ r : Fin 256, xc (ix2 p r) * Cert.QLinear.nibble (qb (ix2 r q)) s

/-- The matrix unit into the zero accumulator, on a chunk and the plane made from the packed tile by shift, mask and
    conversion, at (p, q). -/
theorem plane_dot (xc : FVec Ideal S1024x256 .bf16) (qb : IVec S256x1024 32) (s : Fin 8) (sh : BitVec 32)
    (hsh : sh = BitVec.ofNat 32 (4 * s.val)) (p q : Fin 1024) :
    (matmul dot_S1024x256_S256x1024_S1024x1024_1_0_0_1_n_n none (shapeCast S1024x256 xc shapeCasts_S1024x256_S1024x256)
        (sitofp .bf16 (andi (shrsi qb (broadcast S256x1024 sh)) (broadcast S256x1024 15#32)) : FVec Ideal S256x1024 .bf16)
        (constant S1024x1024 .f32 0x00000000#32) : FVec Ideal S1024x1024 .f32) (ix2 p q)
      = chunkDot xc qb s p q := by
  subst hsh
  rw [shapeCast_self]
  refine (congrFun (Cert.LibPlainDot.matmul_zero_eq_matProd (M := 1024) (K := 256) (N := 1024)
    dot_S1024x256_S256x1024_S1024x1024_1_0_0_1_n_n rfl rfl rfl rfl rfl rfl none xc _) (ix2 p q)).trans ?_
  rw [Cert.LibPlainDot.matProd_ix2]
  unfold chunkDot
  refine Finset.sum_congr rfl fun r _ => ?_
  exact congrArg (xc (ix2 p r) * ·) (nibble_word (qb (ix2 r q)) s)

/-- A same-shape cast of the packed tile is the tile. -/
theorem pay4_eq (v3 : Vec Ideal S256x1024 .i32) : k0_pay4 (F := Ideal) v3 = v3 := shapeCast_self _ _

/-- The cleared accumulator is zero everywhere. -/
theorem pay3_at (p q : Fin 1024) : (k0_pay3 (F := Ideal)) (ix2 p q) = 0 := by
  unfold k0_pay3
  rw [shapeCast_self]
  exact Ideal.ofBits_zero_f32

/-- Planes 0, 1, 2 added onto what the accumulator held. -/
theorem pay5_at (v3 : Vec Ideal S256x1024 .i32) (v5 : Vec Ideal S1024x1024 .f32) (v11 v20 v29 : Vec Ideal S1024x256 .bf16)
    (p q : Fin 1024) :
    k0_pay5 (F := Ideal) v3 v5 v11 v20 v29 (ix2 p q)
      = v5 (ix2 p q) + chunkDot v11 v3 0 p q + chunkDot v20 v3 1 p q + chunkDot v29 v3 2 p q := by
  unfold k0_pay5
  rw [pay4_eq]
  exact congrArg₂ (· + ·) (congrArg₂ (· + ·) (congrArg₂ (· + ·) rfl (plane_dot v11 v3 0 _ rfl p q))
    (plane_dot v20 v3 1 _ rfl p q)) (plane_dot v29 v3 2 _ rfl p q)

/-- Planes 3, 4, 5, 6 added onto the running value. -/
theorem pay7_at (v4 : IVec S256x1024 32) (v32 : FVec Ideal S1024x1024 .f32) (v33 : IVec S256x1024 32)
    (hv33 : v33 = k0_pay6) (v38 v47 v56 v65 : Vec Ideal S1024x256 .bf16) (p q : Fin 1024) :
    k0_pay7 (F := Ideal) v4 v32 v33 v38 v47 v56 v65 (ix2 p q)
      = v32 (ix2 p q) + chunkDot v38 v4 3 p q + chunkDot v47 v4 4 p q + chunkDot v56 v4 5 p q + chunkDot v65 v4 6 p q := by
  subst hv33
  unfold k0_pay7 k0_pay6
  exact congrArg₂ (· + ·) (congrArg₂ (· + ·) (congrArg₂ (· + ·) (congrArg₂ (· + ·) rfl (plane_dot v38 v4 3 _ rfl p q))
    (plane_dot v47 v4 4 _ rfl p q)) (plane_dot v56 v4 5 _ rfl p q)) (plane_dot v65 v4 6 _ rfl p q)

/-- Plane 7 added onto the running value: what the accumulator is stored with. -/
theorem pay1_at (v4 : IVec S256x1024 32) (v68 : FVec Ideal S1024x1024 .f32) (v72 : IVec S256x1024 32)
    (hv72 : v72 = k0_pay8 v4) (v74 : Vec Ideal S1024x256 .bf16) (p q : Fin 1024) :
    k0_pay1 (F := Ideal) v68 v72 v74 (ix2 p q) = v68 (ix2 p q) + chunkDot v74 v4 7 p q := by
  subst hv72
  unfold k0_pay1 k0_pay8
  rw [shapeCast_self]
  exact congrArg₂ (· + ·) rfl (plane_dot v74 v4 7 _ rfl p q)

/-- A [1024, 1] column broadcast over the tile reads, at (p, q), the column's entry p. -/
theorem broadcast_col_at (v : FVec Ideal S1024x1 .f32) (p q : Fin 1024) :
    (broadcastTo S1024x1024 v broadcasts_S1024x1_S1024x1024 : FVec Ideal S1024x1024 .f32) (ix2 p q) = v (ix2 p (0 : Fin 1)) := by
  refine broadcastTo_apply v broadcasts_S1024x1_S1024x1024 (ix2 p q) (ix2 p (0 : Fin 1)) fun ax => ?_
  match ax with
  | ⟨0, _⟩ => rfl
  | ⟨1, _⟩ => rfl

/-- The last step: accumulator times scale, minus row sum times zero point, plus bias. -/
theorem pay2_at (v84 : Vec Ideal S1024x1024 .f32) (v85 : Vec Ideal S1x1024 .f32) (v89 : Vec Ideal S1024x1 .f32)
    (v91 v97 : Vec Ideal S1x1024 .f32) (p q : Fin 1024) :
    k0_pay2 (F := Ideal) v84 v85 v89 v91 v97 (ix2 p q)
      = (v84 (ix2 p q) * v85 (ix2 (0 : Fin 1) q) - v89 (ix2 p (0 : Fin 1)) * v91 (ix2 (0 : Fin 1) q)) + v97 (ix2 (0 : Fin 1) q) := by
  unfold k0_pay2
  simp only [shapeCast_self]
  show (v84 (ix2 p q) * broadcastTo S1024x1024 v85 broadcasts_S1x1024_S1024x1024 (ix2 p q)
      - broadcastTo S1024x1024 v89 broadcasts_S1024x1_S1024x1024 (ix2 p q) * broadcastTo S1024x1024 v91 broadcasts_S1x1024_S1024x1024 (ix2 p q))
      + broadcastTo S1024x1024 v97 broadcasts_S1x1024_S1024x1024 (ix2 p q) = _
  rw [broadcastTo_1b_ab_apply v85, broadcastTo_1b_ab_apply v91, broadcastTo_1b_ab_apply v97, broadcast_col_at v89]

end Cert.QLinear.Kern

end
-- ==== Proof.Pieces.lean ====
/-
  What one grid point's body leaves in the accumulator and in the output tile, as functions of the tiles it loads.

  The accumulator update adds the eight nibble-plane products of the input tile's eight 256-column chunks with the
  packed tile onto what the accumulator held: at a first K-block that is the zero just stored, at a later one what
  the point before left. At a last K-block the output tile is the stored accumulator times the scale row, minus the
  row-sum column times the zero-point row, plus the bias row.
-/
import proofs.«423083_j23587960390015_3_alg».proof.Proof.Gen.KernelIdeal.Frame
import proofs.«423083_j23587960390015_3_alg».proof.Proof.Payloads

set_option maxRecDepth 16384

noncomputable section

open scoped BigOperators

namespace Cert.QLinear.Kern

open Idealize.ShloMosaic Idealize.ShloMosaic.TcCoe Idealize.ShloMosaic.Tactic Idealize.ShloMosaic.ValueIdx Idealize.SL.Sem
open Cert.KernelIdeal Cert.KernelIdeal.Gen

/-- The accumulator after one body: the eight planes added, in order, onto `a`. -/
def accStep (x0 : Vec Ideal S1024x2048 .bf16) (x1 : Vec Ideal S256x1024 .i32) (a : Vec Ideal S1024x1024 .f32) :
    FVec Ideal S1024x1024 .f32 :=
  k0_pay1
    (k0_pay7 (k0_pay4 x1)
      (k0_pay5 x1 a (View.ld x0 (Rect.unit (s := S1024x2048) ![0, 0] S1024x256.size inb_S1024x2048_S1024x256_0_0)) (View.ld x0 (Rect.unit (s := S1024x2048) ![0, 256] S1024x256.size inb_S1024x2048_S1024x256_0_256)) (View.ld x0 (Rect.unit (s := S1024x2048) ![0, 512] S1024x256.size inb_S1024x2048_S1024x256_0_512)))
      k0_pay6 (View.ld x0 (Rect.unit (s := S1024x2048) ![0, 768] S1024x256.size inb_S1024x2048_S1024x256_0_768)) (View.ld x0 (Rect.unit (s := S1024x2048) ![0, 1024] S1024x256.size inb_S1024x2048_S1024x256_0_1024)) (View.ld x0 (Rect.unit (s := S1024x2048) ![0, 1280] S1024x256.size inb_S1024x2048_S1024x256_0_1280)) (View.ld x0 (Rect.unit (s := S1024x2048) ![0, 1536] S1024x256.size inb_S1024x2048_S1024x256_0_1536)))
    (k0_pay8 (k0_pay4 x1)) (View.ld x0 (Rect.unit (s := S1024x2048) ![0, 1792] S1024x256.size inb_S1024x2048_S1024x256_0_1792))

theorem hz2 : (![0, 0] : Fin 2 → Nat) = fun _ => 0 := funext fun a => by fin_cases a <;> rfl

/-- At a later K-block the accumulator ends at the update of what the point before left. -/
theorem sout_B (c : Dev nD) (i : grid0.Coords) (arg3 : Memref sig .tc .vmem S1024x2048 .bf16) (harg3 : arg3.IsWhole) (arg4 : Memref sig .tc .vmem S256x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec Ideal S1024x2048 .bf16) (x1 : Vec Ideal S256x1024 .i32) (x2 x3 x4 : Vec Ideal S1x1024 .f32) (x5 : Vec Ideal S1024x1 .f32)
    (xs0 : Vec Ideal S1024x1024 .f32) :
    sout0_B_0 (F := Ideal) c i arg3 harg3 arg4 harg4 arg5 harg5 arg6 harg6 arg7 harg7 arg8 harg8 arg9 harg9 arg10 harg10 hc0 hc1 x0 x1 x2 x3 x4 x5 xs0 = accStep x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  simp only [View.readAt_eq_ld, harg3.read_unread, harg4.read_unread, harg10.read_unread,
    View.ld_unit_zero (S := S256x1024) hz2, View.ld_unit_zero (S := S1024x1024) hz2]
  rfl

/-- At a last K-block the output tile is the last step applied to the updated accumulator and the four small tiles. -/
theorem out_B (c : Dev nD) (i : grid0.Coords) (arg3 : Memref sig .tc .vmem S1024x2048 .bf16) (harg3 : arg3.IsWhole) (arg4 : Memref sig .tc .vmem S256x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec Ideal S1024x2048 .bf16) (x1 : Vec Ideal S256x1024 .i32) (x2 x3 x4 : Vec Ideal S1x1024 .f32) (x5 : Vec Ideal S1024x1 .f32)
    (xs0 : Vec Ideal S1024x1024 .f32) :
    out0_B_6 (F := Ideal) c i arg3 harg3 arg4 harg4 arg5 harg5 arg6 harg6 arg7 harg7 arg8 harg8 arg9 harg9 arg10 harg10 hc0 hc1 x0 x1 x2 x3 x4 x5 xs0 = k0_pay2 (accStep x0 x1 xs0) x2 x5 x3 x4 := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  simp only [View.readAt_eq_ld, harg3.read_unread, harg4.read_unread, harg5.read_unread, harg6.read_unread, harg7.read_unread,
    harg8.read_unread, harg10.read_unread, View.readCov_unit_zero (S := S1024x1024) _ hz2,
    View.ld_unit_zero (S := S256x1024) hz2, View.ld_unit_zero (S := S1024x1024) hz2, View.ld_unit_zero (S := S1x1024) hz2,
    View.ld_unit_zero (S := S1024x1) hz2]
  rfl

/-- At a first K-block the accumulator ends at the update of zero. -/
theorem sout_A (c : Dev nD) (i : grid0.Coords) (arg3 : Memref sig .tc .vmem S1024x2048 .bf16) (harg3 : arg3.IsWhole) (arg4 : Memref sig .tc .vmem S256x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec Ideal S1024x2048 .bf16) (x1 : Vec Ideal S256x1024 .i32) (x2 x3 x4 : Vec Ideal S1x1024 .f32) (x5 : Vec Ideal S1024x1 .f32) :
    sout0_A_0 (F := Ideal) c i arg3 harg3 arg4 harg4 arg5 harg5 arg6 harg6 arg7 harg7 arg8 harg8 arg9 harg9 arg10 harg10 hc0 hc1 x0 x1 x2 x3 x4 x5 = accStep x0 x1 (k0_pay3 (F := Ideal)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz2]
  simp only [View.readAt_eq_ld, harg3.read_unread, harg4.read_unread, View.readCov_unit_zero (S := S1024x1024) _ hz2,
    View.ld_unit_zero (S := S256x1024) hz2, View.ld_unit_zero (S := S1024x1024) hz2]
  rfl

end Cert.QLinear.Kern

end
-- ==== Proof.HostPrefix.lean ====
/-
  What the host operations before the launch leave in the arrays the kernel's windows read, entry by entry: the input
  with its K axis permuted into nibble planes, the packed weights and the three per-column rows padded to 11264 columns
  (read inside the first 11008), and the row sums.
-/
import proofs.«423083_j23587960390015_3_alg».proof.Proof.Gen.KernelIdeal.Frame.Runs
import proofs.«423083_j23587960390015_3_alg».proof.Proof.Spec
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.KernelVsHost
import Idealize.ShloMosaic.Lib.IdealHost

noncomputable section

open scoped BigOperators

namespace Cert.QLinear.Kern

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The argument arrays as launched. -/
abbrev argX (c : Dev nD) : S4x2048x4096.Idx → EReal := m ((c : Thread nD τ).loc main_arg0)
abbrev argQ (c : Dev nD) : S512x11008.Idx → BitVec 32 := m ((c : Thread nD τ).loc main_arg1)
abbrev argSc (c : Dev nD) : S11008x1.Idx → EReal := m ((c : Thread nD τ).loc main_arg2)
abbrev argZr (c : Dev nD) : S11008x1.Idx → EReal := m ((c : Thread nD τ).loc main_arg3)
abbrev argB (c : Dev nD) : S11008.Idx → EReal := m ((c : Thread nD τ).loc main_arg4)

/-! ## Each host-written array as one term over the launched arrays -/

/-- The padded packed weights as a term over the launched array. -/
theorem v1_eq (c : Dev nD) :
    (V m c main_v1 : S512x11264.Idx → BitVec 32)
      = pad S512x11264 ![0, 0] ![0, 256] ![0, 0] (m ((c : Thread nD τ).loc main_arg1)) (constantI S_ 32 0#32)
          pads_S512x11008_S512x11264_000_02560 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The padded scale row as a term over the launched array. -/
theorem v6_eq (c : Dev nD) :
    (V m c main_v6 : S1x11264.Idx → EReal)
      = broadcastInDim S1x11264 ![1] bcast_S11264_S1x11264_1
          (shapeCast S11264
            (pad S11264x1 ![0, 0] ![256, 0] ![0, 0] (m ((c : Thread nD τ).loc main_arg2))
              (sitofp (F := Ideal) .f32 (constantI S_ 32 0#32)) pads_S11008x1_S11264x1_02560_000 h_S_)
            shapeCasts_S11264x1_S11264) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The padded zero-point row as a term over the launched array. -/
theorem v8_eq (c : Dev nD) :
    (V m c main_v8 : S1x11264.Idx → EReal)
      = broadcastInDim S1x11264 ![1] bcast_S11264_S1x11264_1
          (shapeCast S11264
            (pad S11264x1 ![0, 0] ![256, 0] ![0, 0] (m ((c : Thread nD τ).loc main_arg3))
              (sitofp (F := Ideal) .f32 (constantI S_ 32 0#32)) pads_S11008x1_S11264x1_02560_000 h_S_)
            shapeCasts_S11264x1_S11264) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The padded bias row as a term over the launched array. -/
theorem v9_eq (c : Dev nD) :
    (V m c main_v9 : S1x11264.Idx → EReal)
      = broadcastInDim S1x11264 ![1] bcast_S11264_S1x11264_1
          (pad S11264 ![0] ![256] ![0] (m ((c : Thread nD τ).loc main_arg4))
            (sitofp (F := Ideal) .f32 (constantI S_ 32 0#32)) pads_S11008_S11264_02560 h_S_) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The row sums as a term over the launched array. -/
theorem v13_eq (c : Dev nD) :
    (V m c main_v13 : S8192x1.Idx → EReal)
      = broadcastInDim S8192x1 ![0] bcast_S8192_S8192x1_0
          (Host.reduceAdd (F := Ideal)
            (extf (F := Ideal) .f32
              (truncf (F := Ideal) .bf16
                (shapeCast S8192x4096 (m ((c : Thread nD τ).loc main_arg0)) shapeCasts_S4x2048x4096_S8192x4096)
                bitsLt_bf16_f32)
              bitsLt_bf16_f32)
            (constant (F := Ideal) S_ .f32 0x00000000#32) reducesTo_S8192x4096_S8192_d1 h_S_) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The permuted input as a term over the launched array. -/
theorem v16_eq (c : Dev nD) :
    (V m c main_v16 : S8192x4096.Idx → EReal)
      = shapeCast S8192x4096
          (transpose S8192x2x8x256 [0, 1, 3, 2]
            (shapeCast S8192x2x256x8
              (truncf (F := Ideal) .bf16
                (shapeCast S8192x4096 (m ((c : Thread nD τ).loc main_arg0)) shapeCasts_S4x2048x4096_S8192x4096)
                bitsLt_bf16_f32)
              shapeCasts_S8192x4096_S8192x2x256x8)
            transposes_S8192x2x256x8_S8192x2x8x256_0_1_3_2)
          shapeCasts_S8192x2x8x256_S8192x4096 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-! ## Two compositions read at an entry -/

/-- A column vector padded below, flattened and laid out as one row, read inside the operand. -/
theorem padrow_apply (x : S11008x1.Idx → EReal) (v : S_.Idx → EReal) (o : Fin 11008) :
    broadcastInDim S1x11264 ![1] bcast_S11264_S1x11264_1
        (shapeCast S11264 (pad S11264x1 ![0, 0] ![256, 0] ![0, 0] x v pads_S11008x1_S11264x1_02560_000 h_S_)
          shapeCasts_S11264x1_S11264)
        (ix2 (0 : Fin 1) (⟨o.val, by have := o.isLt; omega⟩ : Fin 11264))
      = x (ix2 o (0 : Fin 1)) := by
  have ho : o.val < 11264 := by have := o.isLt; omega
  refine (broadcastInDim_apply _ bcast_S11264_S1x11264_1 _ _ (ix1 (⟨o.val, ho⟩ : Fin 11264)) (fun a => match a with
    | ⟨0, _⟩ => by show o.val = if (11264 : Nat) = 1 then 0 else o.val; rw [if_neg (by decide)])).trans ?_
  refine (shapeCast_apply _ shapeCasts_S11264x1_S11264 _ (ix2 (⟨o.val, ho⟩ : Fin 11264) (0 : Fin 1)) (by
    rewrite [Shape.rowMajor_val_two, Shape.rowMajor_val_one]; show o.val * 1 + 0 = o.val; omega)).trans ?_
  exact pad_apply_of_inside _ _ _ _ _ pads_S11008x1_S11264x1_02560_000 h_S_ _ (ix2 o (0 : Fin 1)) (fun a => match a with
    | ⟨0, _⟩ => by show o.val = 0 + o.val * (0 + 1); omega
    | ⟨1, _⟩ => by show (0 : Nat) = 0 + 0 * (0 + 1); omega)

/-- The input flattened to rows, read at a row and a column. -/
theorem xflat_apply (x : S4x2048x4096.Idx → EReal) (mr : Fin 8192) (i : Fin 4096) :
    shapeCast S8192x4096 x shapeCasts_S4x2048x4096_S8192x4096 (ix2 mr i) = Cert.QLinear.rows x mr i := by
  have hm := mr.isLt
  unfold Cert.QLinear.rows
  exact shapeCast_apply x shapeCasts_S4x2048x4096_S8192x4096 (ix2 mr i)
    (ix3 (⟨mr.val / 2048, by omega⟩ : Fin 4) (⟨mr.val % 2048, Nat.mod_lt _ (by decide)⟩ : Fin 2048) i) (by
      rewrite [Shape.rowMajor_val_three, Shape.rowMajor_val_two]
      show (mr.val / 2048 * 2048 + mr.val % 2048) * 4096 + i.val = mr.val * 4096 + i.val
      omega)

/-! ## The arrays read at an entry -/

/-- The permuted input: column 2048 k + 256 s + r of row mr holds the input's column 2048 k + 8 r + s. -/
theorem xperm_at (c : Dev nD) (mr : Fin 8192) (k : Fin 2) (s : Fin 8) (r : Fin 256) :
    (V m c main_v16 : S8192x4096.Idx → EReal)
        (ix2 mr (⟨k.val * 2048 + s.val * 256 + r.val, by have := k.isLt; have := s.isLt; have := r.isLt; omega⟩ : Fin 4096))
      = Cert.QLinear.rows (argX m c) mr (⟨k.val * 2048 + r.val * 8 + s.val, by have := k.isLt; have := s.isLt; have := r.isLt; omega⟩ : Fin 4096) := by
  have hk := k.isLt
  have hs := s.isLt
  have hr := r.isLt
  have hm := mr.isLt
  refine (congrFun (v16_eq m c) _).trans ?_
  refine (shapeCast_apply _ shapeCasts_S8192x2x8x256_S8192x4096 _ (ix4 mr k s r) (by
    rewrite [Shape.rowMajor_val_four, Shape.rowMajor_val_two]
    show ((mr.val * 2 + k.val) * 8 + s.val) * 256 + r.val = mr.val * 4096 + (k.val * 2048 + s.val * 256 + r.val)
    omega)).trans ?_
  refine (transpose_apply [0, 1, 3, 2] _ transposes_S8192x2x256x8_S8192x2x8x256_0_1_3_2 (ix4 mr k s r) (ix4 mr k r s)
    (fun b => match b with
      | ⟨0, _⟩ => rfl
      | ⟨1, _⟩ => rfl
      | ⟨2, _⟩ => rfl
      | ⟨3, _⟩ => rfl)).trans ?_
  refine (shapeCast_apply _ shapeCasts_S8192x4096_S8192x2x256x8 _
    (ix2 mr (⟨k.val * 2048 + r.val * 8 + s.val, by omega⟩ : Fin 4096)) (by
    rewrite [Shape.rowMajor_val_two, Shape.rowMajor_val_four]
    show mr.val * 4096 + (k.val * 2048 + r.val * 8 + s.val) = ((mr.val * 2 + k.val) * 256 + r.val) * 8 + s.val
    omega)).trans ?_
  exact xflat_apply _ mr _

/-- The padded packed weights inside the first 11008 columns. -/
theorem qpad_at (c : Dev nD) (R : Fin 512) (o : Fin 11008) :
    (V m c main_v1 : S512x11264.Idx → BitVec 32) (ix2 R (⟨o.val, by have := o.isLt; omega⟩ : Fin 11264)) = argQ m c (ix2 R o) := by
  refine (congrFun (v1_eq m c) _).trans ?_
  exact pad_apply_of_inside _ _ _ _ _ pads_S512x11008_S512x11264_000_02560 h_S_ _ (ix2 R o) (fun a => match a with
    | ⟨0, _⟩ => by show R.val = 0 + R.val * (0 + 1); omega
    | ⟨1, _⟩ => by show o.val = 0 + o.val * (0 + 1); omega)

/-- The padded scale row inside the first 11008 columns. -/
theorem scrow_at (c : Dev nD) (o : Fin 11008) :
    (V m c main_v6 : S1x11264.Idx → EReal) (ix2 (0 : Fin 1) (⟨o.val, by have := o.isLt; omega⟩ : Fin 11264)) = argSc m c (ix2 o (0 : Fin 1)) := by
  refine (congrFun (v6_eq m c) _).trans ?_
  exact padrow_apply _ _ o

/-- The padded zero-point row inside the first 11008 columns. -/
theorem zrrow_at (c : Dev nD) (o : Fin 11008) :
    (V m c main_v8 : S1x11264.Idx → EReal) (ix2 (0 : Fin 1) (⟨o.val, by have := o.isLt; omega⟩ : Fin 11264)) = argZr m c (ix2 o (0 : Fin 1)) := by
  refine (congrFun (v8_eq m c) _).trans ?_
  exact padrow_apply _ _ o

/-- The padded bias row inside the first 11008 columns. -/
theorem brow_at (c : Dev nD) (o : Fin 11008) :
    (V m c main_v9 : S1x11264.Idx → EReal) (ix2 (0 : Fin 1) (⟨o.val, by have := o.isLt; omega⟩ : Fin 11264)) = argB m c (ix1 o) := by
  have ho : o.val < 11264 := by have := o.isLt; omega
  refine (congrFun (v9_eq m c) _).trans ?_
  refine (broadcastInDim_apply _ bcast_S11264_S1x11264_1 _ _ (ix1 (⟨o.val, ho⟩ : Fin 11264)) (fun a => match a with
    | ⟨0, _⟩ => by show o.val = if (11264 : Nat) = 1 then 0 else o.val; rw [if_neg (by decide)])).trans ?_
  exact pad_apply_of_inside _ _ _ _ _ pads_S11008_S11264_02560 h_S_ _ (ix1 o) (fun a => match a with
    | ⟨0, _⟩ => by show o.val = 0 + o.val * (0 + 1); omega)

/-- The row sums. -/
theorem rowsum_at (c : Dev nD) (mr : Fin 8192) :
    (V m c main_v13 : S8192x1.Idx → EReal) (ix2 mr (0 : Fin 1)) = Cert.QLinear.rowsum (argX m c) mr := by
  have hR : S8192x4096.Reduces [1] S8192 := by decide
  refine (congrFun (v13_eq m c) _).trans ?_
  refine (broadcastInDim_apply _ bcast_S8192_S8192x1_0 _ _ (ix1 mr) (fun a => match a with
    | ⟨0, _⟩ => by show mr.val = if (8192 : Nat) = 1 then 0 else mr.val; rw [if_neg (by decide)])).trans ?_
  refine (hostReduceAdd_apply _ _ reducesTo_S8192x4096_S8192_d1 h_S_ (ix1 mr)).trans ?_
  refine (Ideal.hostReduceAdd_single reducesTo_S8192x4096_S8192_d1 hR _ _ (ix1 mr)).trans ?_
  unfold Cert.QLinear.rowsum
  refine congrArg₂ (· + ·) Ideal.ofBits_zero_f32 (Finset.sum_congr rfl fun i _ => ?_)
  exact xflat_apply _ mr i

end Cert.QLinear.Kern

end
-- ==== Proof.KernelValue.lean ====
/-
  The kernel program's result array, as a function of its arguments.

  The grid is 8 × 11 × 2: point t has row block t / 22, column block t / 2 mod 11 and K-block t mod 2. At a point of
  K-block 0 the accumulator is reset and the eight planes of that K-block are added; at the following point (K-block 1)
  the eight planes of the second K-block are added onto it and the output tile is computed and written back — cut at
  column 11008 for the last column block. Every entry of the [8192, 11008] result is covered by the write-back of its
  (row block, column block), and holds the folded form there; the reshape after the launch lays it out as
  [4, 2048, 11008].
-/
import proofs.«423083_j23587960390015_3_alg».proof.Proof.Pieces
import proofs.«423083_j23587960390015_3_alg».proof.Proof.HostPrefix
import Idealize.ShloMosaic.Lib.Pipeline.Value
import Idealize.ShloMosaic.Lib.StableHlo.Run
import Idealize.ShloMosaic.Lib.Tactic

set_option maxRecDepth 16384

noncomputable section

open scoped BigOperators

namespace Cert.QLinear.Kern

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## One body's accumulator update at an entry -/

/-- A 256-column chunk of the input tile read at (p, r): the tile at column o + r. -/
theorem chunk_at (x0 : Vec Ideal S1024x2048 .bf16) (o : Nat)
    (inb : ∀ a, (![0, o] : Fin 2 → Nat) a + S1024x256.size a ≤ S1024x2048.size a) (p : Fin 1024) (r : Fin 256) (h : o + r.val < 2048) :
    View.ld x0 (Rect.unit (s := S1024x2048) ![0, o] S1024x256.size inb) (ix2 p r) = x0 (ix2 p (⟨o + r.val, h⟩ : Fin 2048)) := by
  show x0 _ = x0 _
  refine congrArg x0 (funext fun a => Fin.ext ?_)
  match a with
  | ⟨0, _⟩ => show 0 + 1 * p.val = p.val; omega
  | ⟨1, _⟩ => show o + 1 * r.val = o + r.val; omega

/-- Plane s of a tile pair: the input tile's columns 256 s + r against nibble s of the packed tile's rows r. -/
def tilePlane (x0 : Vec Ideal S1024x2048 .bf16) (x1 : Vec Ideal S256x1024 .i32) (s : Fin 8) (p q : Fin 1024) : EReal :=
  ∑ r : Fin 256, x0 (ix2 p (⟨256 * s.val + r.val, by have := s.isLt; have := r.isLt; omega⟩ : Fin 2048))
    * Cert.QLinear.nibble (x1 (ix2 r q)) s

theorem chunkDot_chunk (x0 : Vec Ideal S1024x2048 .bf16) (x1 : Vec Ideal S256x1024 .i32) (s : Fin 8) (o : Nat) (ho : o = 256 * s.val)
    (inb : ∀ a, (![0, o] : Fin 2 → Nat) a + S1024x256.size a ≤ S1024x2048.size a) (p q : Fin 1024) :
    chunkDot (View.ld x0 (Rect.unit (s := S1024x2048) ![0, o] S1024x256.size inb)) x1 s p q = tilePlane x0 x1 s p q := by
  subst ho
  unfold chunkDot tilePlane
  refine Finset.sum_congr rfl fun r _ => ?_
  exact congrArg (· * Cert.QLinear.nibble (x1 (ix2 r q)) s) (chunk_at x0 _ inb p r (by have := s.isLt; have := r.isLt; omega))

/-- The accumulator update at (p, q): the eight planes added, in order, onto what it held. -/
theorem accStep_at (x0 : Vec Ideal S1024x2048 .bf16) (x1 : Vec Ideal S256x1024 .i32) (a : Vec Ideal S1024x1024 .f32) (p q : Fin 1024) :
    accStep x0 x1 a (ix2 p q)
      = a (ix2 p q) + tilePlane x0 x1 0 p q + tilePlane x0 x1 1 p q + tilePlane x0 x1 2 p q + tilePlane x0 x1 3 p q
        + tilePlane x0 x1 4 p q + tilePlane x0 x1 5 p q + tilePlane x0 x1 6 p q + tilePlane x0 x1 7 p q := by
  unfold accStep
  refine (pay1_at (k0_pay4 x1) _ _ rfl _ p q).trans ?_
  rw [pay7_at (k0_pay4 x1) _ _ rfl, pay5_at, pay4_eq]
  rw [chunkDot_chunk x0 x1 0 0 rfl, chunkDot_chunk x0 x1 1 256 rfl, chunkDot_chunk x0 x1 2 512 rfl, chunkDot_chunk x0 x1 3 768 rfl,
    chunkDot_chunk x0 x1 4 1024 rfl, chunkDot_chunk x0 x1 5 1280 rfl, chunkDot_chunk x0 x1 6 1536 rfl, chunkDot_chunk x0 x1 7 1792 rfl]

/-! ## The grid -/

theorem hN : cfg0.N = 176 := N_0

/-- The block indices of every window at every point, decided over the grid. -/
theorem idx_facts : ∀ t : Fin cfg0.N,
    win0_0.index t 0 = t.val / 22 ∧ win0_0.index t 1 = t.val % 2
    ∧ win0_1.index t 0 = t.val % 2 ∧ win0_1.index t 1 = t.val / 2 % 11
    ∧ win0_2.index t 0 = 0 ∧ win0_2.index t 1 = t.val / 2 % 11
    ∧ win0_3.index t 0 = 0 ∧ win0_3.index t 1 = t.val / 2 % 11
    ∧ win0_4.index t 0 = 0 ∧ win0_4.index t 1 = t.val / 2 % 11
    ∧ win0_5.index t 0 = t.val / 22 ∧ win0_5.index t 1 = 0
    ∧ win0_6.index t 0 = t.val / 22 ∧ win0_6.index t 1 = t.val / 2 % 11 :=
  (by decide +kernel : ∀ t : Fin grid0.N,
    win0_0.index t 0 = t.val / 22 ∧ win0_0.index t 1 = t.val % 2
    ∧ win0_1.index t 0 = t.val % 2 ∧ win0_1.index t 1 = t.val / 2 % 11
    ∧ win0_2.index t 0 = 0 ∧ win0_2.index t 1 = t.val / 2 % 11
    ∧ win0_3.index t 0 = 0 ∧ win0_3.index t 1 = t.val / 2 % 11
    ∧ win0_4.index t 0 = 0 ∧ win0_4.index t 1 = t.val / 2 % 11
    ∧ win0_5.index t 0 = t.val / 22 ∧ win0_5.index t 1 = 0
    ∧ win0_6.index t 0 = t.val / 22 ∧ win0_6.index t 1 = t.val / 2 % 11)

/-- What the output's write-back moves: all 1024 rows, and 1024 columns but for the last column block, cut to 768. -/
theorem xsize_facts : ∀ t : Fin cfg0.N,
    win0_6.xsize (grid0.coords t) 0 = 1024 ∧ win0_6.xsize (grid0.coords t) 1 = (if t.val / 2 % 11 = 10 then 768 else 1024) :=
  (by decide +kernel : ∀ t : Fin grid0.N,
    win0_6.xsize (grid0.coords t) 0 = 1024 ∧ win0_6.xsize (grid0.coords t) 1 = (if t.val / 2 % 11 = 10 then 768 else 1024))

/-! ## The tiles the body loads, as blocks of the arrays the region finds -/

abbrev xblk (c : Dev nD) (t : Fin cfg0.N) : Vec Ideal S1024x2048 .bf16 := iblk m c 0 t
abbrev qblk (c : Dev nD) (t : Fin cfg0.N) : Vec Ideal S256x1024 .i32 := iblk m c 1 t
abbrev scblk (c : Dev nD) (t : Fin cfg0.N) : Vec Ideal S1x1024 .f32 := iblk m c 2 t
abbrev zrblk (c : Dev nD) (t : Fin cfg0.N) : Vec Ideal S1x1024 .f32 := iblk m c 3 t
abbrev bblk (c : Dev nD) (t : Fin cfg0.N) : Vec Ideal S1x1024 .f32 := iblk m c 4 t
abbrev rsblk (c : Dev nD) (t : Fin cfg0.N) : Vec Ideal S1024x1 .f32 := iblk m c 5 t

theorem xblk_at (c : Dev nD) (t : Fin cfg0.N) (p : Fin 1024) (col : Fin 2048) (R : Fin 8192) (C : Fin 4096)
    (hR : R.val = t.val / 22 * 1024 + p.val) (hC : C.val = t.val % 2 * 2048 + col.val) :
    xblk m c t (ix2 p col) = (V m c main_v16 : S8192x4096.Idx → EReal) (ix2 R C) := by
  have hi := idx_facts t
  unfold xblk iblk
  rw [View.read_apply]
  show V m c main_v16 _ = V m c main_v16 _
  refine congrArg (V m c main_v16) (funext fun a => Fin.ext ?_)
  match a with
  | ⟨0, _⟩ => show win0_0.index t 0 * 1024 + 1 * p.val = R.val; rw [hi.1, hR]; omega
  | ⟨1, _⟩ => show win0_0.index t 1 * 2048 + 1 * col.val = C.val; rw [hi.2.1, hC]; omega

theorem qblk_at (c : Dev nD) (t : Fin cfg0.N) (r : Fin 256) (q : Fin 1024) (R : Fin 512) (C : Fin 11264)
    (hR : R.val = t.val % 2 * 256 + r.val) (hC : C.val = t.val / 2 % 11 * 1024 + q.val) :
    qblk m c t (ix2 r q) = (V m c main_v1 : S512x11264.Idx → BitVec 32) (ix2 R C) := by
  have hi := idx_facts t
  unfold qblk iblk
  rw [View.read_apply]
  show V m c main_v1 _ = V m c main_v1 _
  refine congrArg (V m c main_v1) (funext fun a => Fin.ext ?_)
  match a with
  | ⟨0, _⟩ => show win0_1.index t 0 * 256 + 1 * r.val = R.val; rw [hi.2.2.1, hR]; omega
  | ⟨1, _⟩ => show win0_1.index t 1 * 1024 + 1 * q.val = C.val; rw [hi.2.2.2.1, hC]; omega

theorem scblk_at (c : Dev nD) (t : Fin cfg0.N) (q : Fin 1024) (C : Fin 11264) (hC : C.val = t.val / 2 % 11 * 1024 + q.val) :
    scblk m c t (ix2 (0 : Fin 1) q) = (V m c main_v6 : S1x11264.Idx → EReal) (ix2 (0 : Fin 1) C) := by
  have hi := idx_facts t
  unfold scblk iblk
  rw [View.read_apply]
  show V m c main_v6 _ = V m c main_v6 _
  refine congrArg (V m c main_v6) (funext fun a => Fin.ext ?_)
  match a with
  | ⟨0, _⟩ => show win0_2.index t 0 * 1 + 1 * 0 = 0; rw [hi.2.2.2.2.1]
  | ⟨1, _⟩ => show win0_2.index t 1 * 1024 + 1 * q.val = C.val; rw [hi.2.2.2.2.2.1, hC]; omega

theorem zrblk_at (c : Dev nD) (t : Fin cfg0.N) (q : Fin 1024) (C : Fin 11264) (hC : C.val = t.val / 2 % 11 * 1024 + q.val) :
    zrblk m c t (ix2 (0 : Fin 1) q) = (V m c main_v8 : S1x11264.Idx → EReal) (ix2 (0 : Fin 1) C) := by
  have hi := idx_facts t
  unfold zrblk iblk
  rw [View.read_apply]
  show V m c main_v8 _ = V m c main_v8 _
  refine congrArg (V m c main_v8) (funext fun a => Fin.ext ?_)
  match a with
  | ⟨0, _⟩ => show win0_3.index t 0 * 1 + 1 * 0 = 0; rw [hi.2.2.2.2.2.2.1]
  | ⟨1, _⟩ => show win0_3.index t 1 * 1024 + 1 * q.val = C.val; rw [hi.2.2.2.2.2.2.2.1, hC]; omega

theorem bblk_at (c : Dev nD) (t : Fin cfg0.N) (q : Fin 1024) (C : Fin 11264) (hC : C.val = t.val / 2 % 11 * 1024 + q.val) :
    bblk m c t (ix2 (0 : Fin 1) q) = (V m c main_v9 : S1x11264.Idx → EReal) (ix2 (0 : Fin 1) C) := by
  have hi := idx_facts t
  unfold bblk iblk
  rw [View.read_apply]
  show V m c main_v9 _ = V m c main_v9 _
  refine congrArg (V m c main_v9) (funext fun a => Fin.ext ?_)
  match a with
  | ⟨0, _⟩ => show win0_4.index t 0 * 1 + 1 * 0 = 0; rw [hi.2.2.2.2.2.2.2.2.1]
  | ⟨1, _⟩ => show win0_4.index t 1 * 1024 + 1 * q.val = C.val; rw [hi.2.2.2.2.2.2.2.2.2.1, hC]; omega

theorem rsblk_at (c : Dev nD) (t : Fin cfg0.N) (p : Fin 1024) (R : Fin 8192) (hR : R.val = t.val / 22 * 1024 + p.val) :
    rsblk m c t (ix2 p (0 : Fin 1)) = (V m c main_v13 : S8192x1.Idx → EReal) (ix2 R (0 : Fin 1)) := by
  have hi := idx_facts t
  unfold rsblk iblk
  rw [View.read_apply]
  show V m c main_v13 _ = V m c main_v13 _
  refine congrArg (V m c main_v13) (funext fun a => Fin.ext ?_)
  match a with
  | ⟨0, _⟩ => show win0_5.index t 0 * 1024 + 1 * p.val = R.val; rw [hi.2.2.2.2.2.2.2.2.2.2.1, hR]; omega
  | ⟨1, _⟩ => show win0_5.index t 1 * 1 + 1 * 0 = 0; rw [hi.2.2.2.2.2.2.2.2.2.2.2.1]

/-! ## A tile pair's plane is the specification's plane -/

theorem tilePlane_eq (c : Dev nD) (t : Fin cfg0.N) (s : Fin 8) (p q : Fin 1024) (M : Fin 8192) (O : Fin 11008) (K : Fin 2)
    (hM : M.val = t.val / 22 * 1024 + p.val) (hO : O.val = t.val / 2 % 11 * 1024 + q.val) (hK : K.val = t.val % 2) :
    tilePlane (xblk m c t) (qblk m c t) s p q = Cert.QLinear.plane (argX m c) (argQ m c) M O K s := by
  unfold tilePlane Cert.QLinear.plane
  refine Finset.sum_congr rfl fun r _ => ?_
  have hs := s.isLt; have hr := r.isLt; have hk := K.isLt; have ho := O.isLt
  have e1 := (xblk_at m c t p (⟨256 * s.val + r.val, by omega⟩ : Fin 2048) M
    (⟨K.val * 2048 + s.val * 256 + r.val, by omega⟩ : Fin 4096) hM (by show K.val * 2048 + s.val * 256 + r.val = t.val % 2 * 2048 + (256 * s.val + r.val); rw [hK]; omega)).trans
    (xperm_at m c M K s r)
  have e2 := (qblk_at m c t r q (⟨K.val * 256 + r.val, by omega⟩ : Fin 512) (⟨O.val, by omega⟩ : Fin 11264)
    (by show K.val * 256 + r.val = t.val % 2 * 256 + r.val; rw [hK]) hO).trans (qpad_at m c (⟨K.val * 256 + r.val, by omega⟩ : Fin 512) O)
  rw [e1, e2]

/-! ## What the point-by-point contents are -/

/-- After a point of K-block 0 the accumulator is the update of zero by that point's tiles. -/
theorem outs_A_snd (c : Dev nD) (t : Fin cfg0.N) (h0 : t.val % 2 = 0) (h1 : ¬t.val % 2 = 1) :
    (outsAt0 m c t.val t.isLt).2 = accStep (xblk m c t) (qblk m c t) (k0_pay3 (F := Ideal)) := by
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h))
    (iblk m c 0 t) (iblk m c 1 t) (iblk m c 2 t) (iblk m c 3 t) (iblk m c 4 t) (iblk m c 5 t)

/-- After a point of K-block 1 the output tile is the last step on the accumulator updated from what the point before
    left. -/
theorem outs_B_fst (c : Dev nD) (t : Fin cfg0.N) (h0 : ¬t.val % 2 = 0) (h1 : t.val % 2 = 1) :
    (outsAt0 m c t.val t.isLt).1
      = k0_pay2 (accStep (xblk m c t) (qblk m c t) (outsAt0 m c (t.val - 1) (Nat.lt_of_le_of_lt (Nat.sub_le _ _) t.isLt)).2)
          (scblk m c t) (rsblk m c t) (zrblk m c t) (bblk m c t) := by
  rw [outsAt0_B m c t h0 h1]
  dsimp only
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t)
    (outsAt0 m c (t.val - 1) (Nat.lt_of_le_of_lt (Nat.sub_le _ _) t.isLt)).2

/-- The output tile of a point of K-block 1, at an entry whose column lies inside the result: the folded form. -/
theorem out_tile_at (c : Dev nD) (t : Fin cfg0.N) (h1 : t.val % 2 = 1) (p q : Fin 1024) (M : Fin 8192) (O : Fin 11008)
    (hM : M.val = t.val / 22 * 1024 + p.val) (hO : O.val = t.val / 2 % 11 * 1024 + q.val) :
    (outsAt0 m c t.val t.isLt).1 (ix2 p q)
      = Cert.QLinear.folded (argX m c) (argQ m c) (argSc m c) (argZr m c) (argB m c) M O := by
  have ht := t.isLt
  have hN' : cfg0.N = 176 := N_0
  have ho := O.isLt
  let t' : Fin cfg0.N := ⟨t.val - 1, Nat.lt_of_le_of_lt (Nat.sub_le _ _) t.isLt⟩
  have hA : (outsAt0 m c (t.val - 1) (Nat.lt_of_le_of_lt (Nat.sub_le _ _) t.isLt)).2
      = accStep (xblk m c t') (qblk m c t') (k0_pay3 (F := Ideal)) :=
    outs_A_snd m c t' (by show (t.val - 1) % 2 = 0; omega) (by show ¬(t.val - 1) % 2 = 1; omega)
  have hM' : M.val = t'.val / 22 * 1024 + p.val := by show M.val = (t.val - 1) / 22 * 1024 + p.val; rw [hM]; omega
  have hO' : O.val = t'.val / 2 % 11 * 1024 + q.val := by show O.val = (t.val - 1) / 2 % 11 * 1024 + q.val; rw [hO]; omega
  have hK' : (0 : Fin 2).val = t'.val % 2 := by show 0 = (t.val - 1) % 2; omega
  have hK : (1 : Fin 2).val = t.val % 2 := by show 1 = t.val % 2; omega
  rw [outs_B_fst m c t (by omega) h1, pay2_at, accStep_at, hA, accStep_at, pay3_at]
  rw [tilePlane_eq m c t' 0 p q M O 0 hM' hO' hK', tilePlane_eq m c t' 1 p q M O 0 hM' hO' hK',
    tilePlane_eq m c t' 2 p q M O 0 hM' hO' hK', tilePlane_eq m c t' 3 p q M O 0 hM' hO' hK',
    tilePlane_eq m c t' 4 p q M O 0 hM' hO' hK', tilePlane_eq m c t' 5 p q M O 0 hM' hO' hK',
    tilePlane_eq m c t' 6 p q M O 0 hM' hO' hK', tilePlane_eq m c t' 7 p q M O 0 hM' hO' hK',
    tilePlane_eq m c t 0 p q M O 1 hM hO hK, tilePlane_eq m c t 1 p q M O 1 hM hO hK,
    tilePlane_eq m c t 2 p q M O 1 hM hO hK, tilePlane_eq m c t 3 p q M O 1 hM hO hK,
    tilePlane_eq m c t 4 p q M O 1 hM hO hK, tilePlane_eq m c t 5 p q M O 1 hM hO hK,
    tilePlane_eq m c t 6 p q M O 1 hM hO hK, tilePlane_eq m c t 7 p q M O 1 hM hO hK]
  rw [(scblk_at m c t q (⟨O.val, by omega⟩ : Fin 11264) hO).trans (scrow_at m c O),
    (zrblk_at m c t q (⟨O.val, by omega⟩ : Fin 11264) hO).trans (zrrow_at m c O),
    (bblk_at m c t q (⟨O.val, by omega⟩ : Fin 11264) hO).trans (brow_at m c O),
    (rsblk_at m c t p M hM).trans (rowsum_at m c M)]
  rfl

end Cert.QLinear.Kern

end
-- ==== Proof.KernelRun.lean ====
/-
  The kernel program's run: every write-back of the output writes its block of the folded form, the write-backs cover
  the [8192, 11008] result, the reshape after the launch lays it out as [4, 2048, 11008], and the arguments are unchanged.
-/
import proofs.«423083_j23587960390015_3_alg».proof.Proof.KernelValue

set_option maxRecDepth 16384

noncomputable section

open scoped BigOperators

namespace Cert.QLinear.Kern

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The launch's result: the folded form at every entry of the [8192, 11008] array. -/
def launchResult (c : Dev nD) : S8192x11008.Idx → EReal := fun i =>
  Cert.QLinear.folded (argX m c) (argQ m c) (argSc m c) (argZr m c) (argB m c)
    (⟨(i 0).val, (i 0).isLt⟩ : Fin 8192) (⟨(i 1).val, (i 1).isLt⟩ : Fin 11008)

/-- What a write-back moves is its block, cut at column 11008, of the folded form. -/
theorem flushed_eq (c : Dev nD) (t : Fin cfg0.N) (hf : (cfg0.win 6).flush t = true) :
    (dats m 0 c).flushed 6 t = ((cfg0.win 6).blk t).view.read (Elt Ideal) (launchResult m c) := by
  have h1 : t.val % 2 = 1 := (flush0_6 t).mp hf
  have hx := xsize_facts t
  obtain ⟨-, -, -, -, -, -, -, -, -, -, -, -, h60, h61⟩ := idx_facts t
  have ht := t.isLt
  have hN' : cfg0.N = 176 := N_0
  funext y
  have hy0 : (y 0).val < 1024 := by
    have h : (y 0).val < win0_6.xsize (grid0.coords t) 0 := (y 0).isLt
    rw [hx.1] at h; exact h
  have hy1 : (y 1).val < (if t.val / 2 % 11 = 10 then 768 else 1024) := by
    have h : (y 1).val < win0_6.xsize (grid0.coords t) 1 := (y 1).isLt
    rw [hx.2] at h; exact h
  have hy1' : (y 1).val < 1024 ∧ t.val / 2 % 11 * 1024 + (y 1).val < 11008 := by
    split at hy1 <;> omega
  show (cfg0.win 6).cut (grid0.coords t) ((dats m 0 c).after 6 t) y = _
  rw [after0_6, View.read_apply]
  show (outsAt0 m c t.val t.isLt).1 (win0_6.xinj (grid0.coords t) y) = launchResult m c (((cfg0.win 6).blk t).view.emb y)
  have e1 : win0_6.xinj (grid0.coords t) y = ix2 (⟨(y 0).val, hy0⟩ : Fin 1024) (⟨(y 1).val, hy1'.1⟩ : Fin 1024) :=
    funext fun a => by match a with | ⟨0, _⟩ => rfl | ⟨1, _⟩ => rfl
  rw [e1]
  refine (out_tile_at m c t h1 _ _ (⟨t.val / 22 * 1024 + (y 0).val, by omega⟩ : Fin 8192)
    (⟨t.val / 2 % 11 * 1024 + (y 1).val, hy1'.2⟩ : Fin 11008) rfl rfl).trans ?_
  unfold launchResult
  refine congrArg₂ (Cert.QLinear.folded (argX m c) (argQ m c) (argSc m c) (argZr m c) (argB m c)) (Fin.ext ?_) (Fin.ext ?_)
  · show t.val / 22 * 1024 + (y 0).val = win0_6.index t 0 * 1024 + 1 * (y 0).val
    rw [h60]; omega
  · show t.val / 2 % 11 * 1024 + (y 1).val = win0_6.index t 1 * 1024 + 1 * (y 1).val
    rw [h61]; omega

/-- Every entry of the result lies in the block some write-back moves: that of its row block and column block. -/
theorem covered (c : Dev nD) (i : S8192x11008.Idx) :
    ∃ t : Fin cfg0.N, (cfg0.win 6).flush t = true ∧ i ∈ ((cfg0.win 6).blk t).view.set := by
  have h0 : (i 0).val < 8192 := (i 0).isLt
  have h1 : (i 1).val < 11008 := (i 1).isLt
  have hN' : cfg0.N = 176 := N_0
  let t : Fin cfg0.N := ⟨((i 0).val / 1024 * 11 + (i 1).val / 1024) * 2 + 1, by omega⟩
  have htv : t.val = ((i 0).val / 1024 * 11 + (i 1).val / 1024) * 2 + 1 := rfl
  refine ⟨t, (flush0_6 t).mpr (by rw [htv]; omega), ?_⟩
  obtain ⟨-, -, -, -, -, -, -, -, -, -, -, -, h60, h61⟩ := idx_facts t
  have hx := xsize_facts t
  show i ∈ ((View.whole main_v17).slice (win0_6.rect t)).set
  rw [View.set_slice_whole, Rect.mem_set_unit]
  intro a
  match a with
  | ⟨0, _⟩ =>
    show win0_6.index t 0 * 1024 ≤ (i 0).val ∧ (i 0).val < win0_6.index t 0 * 1024 + win0_6.xsize (grid0.coords t) 0
    rw [h60, hx.1, htv]; omega
  | ⟨1, _⟩ =>
    show win0_6.index t 1 * 1024 ≤ (i 1).val ∧ (i 1).val < win0_6.index t 1 * 1024 + win0_6.xsize (grid0.coords t) 1
    rw [h61, hx.2, htv]
    split <;> omega

/-- So the launch's result array ends holding the folded form. -/
theorem final (c : Dev nD) : (dats m 0 c).arrAt 6 cfg0.N = launchResult m c :=
  (dats m 0 c).arrAt_eq_of_cover 6 (launchResult m c) (flushed_eq m c) (covered c)

/-- The reshape after the launch: the program's result is the folded form laid out as [4, 2048, 11008]. -/
theorem result_eq (c : Dev nD) :
    Pipeline.afterTail₀ cfgs (dats m) 0 (V0 m) [hostOps1] c main_v18
      = Cert.QLinear.foldedOut (argX m c) (argQ m c) (argSc m c) (argZr m c) (argB m c) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = launchResult m c :=
    (Pipeline.withArrays_arr spec0 launch0.win.arr_inj c _ _ 6).trans (final m c)
  funext j
  obtain ⟨b, t, o, rfl⟩ : ∃ (b : Fin 4) (t : Fin 2048) (o : Fin 11008), j = ix3 b t o := ⟨j 0, j 1, j 2, eq_ix3 j⟩
  show shapeCast S4x2048x11008 _ shapeCasts_S8192x11008_S4x2048x11008 (ix3 b t o) = _
  rw [hw]
  have hb := b.isLt; have ht := t.isLt
  refine (shapeCast_apply (launchResult m c) shapeCasts_S8192x11008_S4x2048x11008 (ix3 b t o)
    (ix2 (⟨b.val * 2048 + t.val, by omega⟩ : Fin 8192) o) ?_).trans ?_
  · rewrite [Shape.rowMajor_val_two, Shape.rowMajor_val_three]
    show (b.val * 2048 + t.val) * 11008 + o.val = (b.val * 2048 + t.val) * 11008 + o.val
    rfl
  · rfl

/-- The run, read: every weakly fair execution ends with the result at the folded form and the arguments unchanged. -/
theorem run : θ_run defs (onTc (τ := τ) (main (F := Ideal))) ⟨m, fun _ => 0, ρ⟩ fun r => ∀ c : Dev nD,
      r.2.mem ((c.tc : Thread nD τ).loc main_v18) = Cert.QLinear.foldedOut (argX m c) (argQ m c) (argSc m c) (argZr m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.QLinear.Kern

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.Law.lean ====
/-
  The folded form equals the layer when the input, the scales and the zero points are real numbers.
-/
import proofs.«423083_j23587960390015_3_alg».proof.Proof.Spec
import proofs.«423083_j23587960390015_3_alg».proof.Proof.LibIdxSums
import Mathlib.Data.EReal.Operations
import Mathlib.Algebra.BigOperators.Ring.Finset
import Mathlib.Tactic.Ring

noncomputable section

open scoped BigOperators

namespace Cert.QLinear

open Idealize.ShloMosaic Idealize.ShloMosaic.ValueIdx

/-- The coercion of a finite sum of reals is the sum of the coercions. -/
theorem coe_sum_real {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over i < 4096 taken as i = 2048k + (8r + s): over k < 2, then s < 8, then r < 256. -/
theorem sum_4096_split {M : Type*} [AddCommMonoid M] (f : Fin 4096 → M) :
    ∑ i, f i = ∑ k : Fin 2, ∑ s : Fin 8, ∑ r : Fin 256,
      f ⟨k.val * 2048 + (r.val * 8 + s.val), by have := k.isLt; have := r.isLt; have := s.isLt; omega⟩ := by
  have h1 := Cert.IdxSums.sum_fin_mul 2 2048 (fun i : Fin (2 * 2048) => f ⟨i.val, i.isLt⟩)
  refine h1.trans (Finset.sum_congr rfl fun k _ => ?_)
  have h2 := Cert.IdxSums.sum_fin_mul 256 8 (fun i : Fin (256 * 8) =>
    f ⟨k.val * 2048 + i.val, by have := k.isLt; have := i.isLt; omega⟩)
  refine h2.trans ?_
  exact Finset.sum_comm

/-- One plane's product is the plane's slice of the single sum's entries. -/
theorem plane_eq (x : (⟨3, ![4, 2048, 4096]⟩ : Shape).Idx → EReal) (q : (⟨2, ![512, 11008]⟩ : Shape).Idx → BitVec 32)
    (m : Fin 8192) (o : Fin 11008) (k : Fin 2) (s : Fin 8) :
    plane x q m o k s = ∑ r : Fin 256,
      (fun i : Fin 4096 => rows x m i * wq q i o)
        ⟨k.val * 2048 + (r.val * 8 + s.val), by have := k.isLt; have := r.isLt; have := s.isLt; omega⟩ := by
  unfold plane
  refine Finset.sum_congr rfl fun r _ => ?_
  have hk := k.isLt; have hr := r.isLt; have hs := s.isLt
  show _ = rows x m _ * wq q _ o
  unfold wq
  have e1 : (⟨k.val * 2048 + r.val * 8 + s.val, by omega⟩ : Fin 4096)
      = ⟨k.val * 2048 + (r.val * 8 + s.val), by omega⟩ := Fin.ext (by simp only []; omega)
  have e2 : (⟨k.val * 256 + r.val, by omega⟩ : Fin 512)
      = ⟨(k.val * 2048 + (r.val * 8 + s.val)) / 8, by omega⟩ := Fin.ext (by simp only []; omega)
  have e3 : s = (⟨(k.val * 2048 + (r.val * 8 + s.val)) % 8, Nat.mod_lt _ (by decide)⟩ : Fin 8) :=
    Fin.ext (by simp only []; omega)
  rw [e1, e2]
  congr 2

/-- The accumulator is the one sum over the 4096 weight rows. -/
theorem acc_eq_sum (x : (⟨3, ![4, 2048, 4096]⟩ : Shape).Idx → EReal) (q : (⟨2, ![512, 11008]⟩ : Shape).Idx → BitVec 32)
    (m : Fin 8192) (o : Fin 11008) :
    acc x q m o = ∑ i : Fin 4096, rows x m i * wq q i o := by
  rw [sum_4096_split (fun i : Fin 4096 => rows x m i * wq q i o)]
  simp only [← plane_eq]
  rw [Fin.sum_univ_two, Fin.sum_univ_eight, Fin.sum_univ_eight]
  unfold acc kblock
  rw [zero_add]
  simp only [add_assoc]

/-- The real algebra: with real entries, (∑ x·w)·s − (0 + ∑ x)·z = ∑ x·(w·s − z). -/
theorem real_fold {ι : Type*} [Fintype ι] (xr wr : ι → ℝ) (s z : ℝ) :
    (∑ i, (xr i : EReal) * (wr i : EReal)) * (s : EReal) - (0 + ∑ i, (xr i : EReal)) * (z : EReal)
      = ∑ i, (xr i : EReal) * ((wr i : EReal) * (s : EReal) - (z : EReal)) := by
  rw [zero_add]
  simp only [← EReal.coe_mul, ← EReal.coe_sub, ← coe_sum_real]
  refine congrArg _ ?_
  rw [Finset.sum_mul, Finset.sum_mul, ← Finset.sum_sub_distrib]
  exact Finset.sum_congr rfl fun i _ => by ring

/-- The folded form at row 2048·a + t, column o, is the layer's entry (a, t, o). -/
theorem folded_eq (x : (⟨3, ![4, 2048, 4096]⟩ : Shape).Idx → EReal) (q : (⟨2, ![512, 11008]⟩ : Shape).Idx → BitVec 32)
    (sc zr : (⟨2, ![11008, 1]⟩ : Shape).Idx → EReal) (b : (⟨1, ![11008]⟩ : Shape).Idx → EReal)
    (hx : ∀ i, ∃ r : ℝ, x i = (r : EReal)) (hsc : ∀ i, ∃ r : ℝ, sc i = (r : EReal)) (hzr : ∀ i, ∃ r : ℝ, zr i = (r : EReal))
    (a : Fin 4) (t : Fin 2048) (o : Fin 11008) :
    folded x q sc zr b (⟨a.val * 2048 + t.val, by have := a.isLt; have := t.isLt; omega⟩ : Fin 8192) o
      = (∑ i : Fin 4096, x (ix3 a t i) * (wq q i o * sc (ix2 o (0 : Fin 1)) - zr (ix2 o (0 : Fin 1)))) + b (ix1 o) := by
  choose xr hxr using hx
  choose scr hscr using hsc
  choose zrr hzrr using hzr
  have h0 := a.isLt
  have h1 := t.isLt
  -- row 2048·a + t of the flattened input is the input's row (a, t)
  have hrows : ∀ i : Fin 4096,
      rows x (⟨a.val * 2048 + t.val, by omega⟩ : Fin 8192) i = x (ix3 a t i) := by
    intro i
    unfold rows
    have ea : (⟨(a.val * 2048 + t.val) / 2048, by omega⟩ : Fin 4) = a := Fin.ext (by simp only []; omega)
    have eb : (⟨(a.val * 2048 + t.val) % 2048, Nat.mod_lt _ (by decide)⟩ : Fin 2048) = t :=
      Fin.ext (by simp only []; omega)
    rw [ea, eb]
  have hw : ∀ i : Fin 4096, ∃ r : ℝ, wq q i o = (r : EReal) := fun i => nibble_real _ _
  choose wr hwr using hw
  unfold folded rowsum
  rw [acc_eq_sum]
  simp only [hrows]
  simp only [hxr, hwr, hscr, hzrr]
  rw [real_fold]

theorem foldedOut_eq_layer (x : (⟨3, ![4, 2048, 4096]⟩ : Shape).Idx → EReal) (q : (⟨2, ![512, 11008]⟩ : Shape).Idx → BitVec 32)
    (sc zr : (⟨2, ![11008, 1]⟩ : Shape).Idx → EReal) (b : (⟨1, ![11008]⟩ : Shape).Idx → EReal)
    (hx : ∀ i, ∃ r : ℝ, x i = (r : EReal)) (hsc : ∀ i, ∃ r : ℝ, sc i = (r : EReal)) (hzr : ∀ i, ∃ r : ℝ, zr i = (r : EReal)) :
    foldedOut x q sc zr b = layer x q sc zr b := by
  funext j
  exact folded_eq x q sc zr b hx hsc hzr (j 0) (j 1) (j 2)

end Cert.QLinear

end
-- ==== Proof.Finite.lean ====
/-
  The precondition says every float input is finite; read at Ideal: every entry of the input, the scales and the zero
  points is a real number.
-/
import proofs.«423083_j23587960390015_3_alg».proof.Pre_finite_inputs
import Idealize.ShloMosaic.Lib.ValueIdx
import Idealize.ShloMosaic.Lib.ReduceAll

noncomputable section

namespace Cert.QLinear

open Idealize.ShloMosaic Idealize.ShloMosaic.ValueIdx Cert.Pre_finite_inputs

/-- An extended real whose absolute value `max a (-a)` is strictly below `⊤` is a real number: at `⊤` and at `⊥` the
    absolute value is `⊤`, which is not below itself. -/
private theorem real_of_abs_lt_top (a : EReal) (h : max a (-a) < ⊤) : ∃ r : ℝ, a = (r : EReal) := by
  induction a using EReal.rec with
  | bot => simp at h
  | coe r => exact ⟨r, rfl⟩
  | top => simp at h

/-- One entry of the comparison `|v| < +∞` being true says that entry of `v` is a real number: the pattern
    `0x7F800000` denotes `⊤`, and the comparison is the strict order of the extended reals. -/
private theorem real_of_abs_olt_inf {s : Shape} (v : FVec Ideal s .f32)
    (hb : S_.BroadcastsInDim s (![] : Fin 0 → Fin s.rank)) (i : s.Idx)
    (h : cmpf .olt (Host.absf v) (broadcastInDim s ![] hb (constant (F := Ideal) S_ .f32 0x7F800000#32)) i = 1#1) :
    ∃ r : ℝ, v i = (r : EReal) := by
  apply real_of_abs_lt_top
  have h2 : Ideal.cmp .olt (max (v i) (-v i)) (Ideal.ofBits .f32 0x7F800000#32) = 1#1 := h
  have h3 : Ideal.ofBits .f32 0x7F800000#32 = ⊤ := by simp [Ideal.ofBits, Ideal.ieee]
  rw [h3] at h2
  simp only [Ideal.cmp] at h2
  by_contra hn
  rw [decide_eq_false hn] at h2
  exact absurd h2 (by decide)

theorem reals_of_finite [Cert.Pre_finite_inputs.Facts] (x : FVec Ideal S4x2048x4096 .f32) (q : IVec S512x11008 32)
    (sc zr : FVec Ideal S11008x1 .f32) (b : FVec Ideal S11008 .f32)
    (h : Cert.Pre_finite_inputs.fn (F := Ideal) x q sc zr b = fun _ => 1#1) :
    (∀ i, ∃ r : ℝ, x i = (r : EReal)) ∧ (∀ i, ∃ r : ℝ, sc i = (r : EReal)) ∧ (∀ i, ∃ r : ℝ, zr i = (r : EReal)) := by
  -- the rank-0 result shape has one index
  haveI : Subsingleton S_.Idx := ⟨fun a b => funext fun d => d.elim0⟩
  -- the precondition at its one index: a conjunction of four "all entries satisfy |v| < +∞"
  have h0 := congrFun h ValueIdx.ix0
  dsimp only [Cert.Pre_finite_inputs.fn, Cert.Pre_finite_inputs.fn_part1] at h0
  obtain ⟨h123, _⟩ := IntOp.andi_eq_one.1 h0
  obtain ⟨h12, h3⟩ := IntOp.andi_eq_one.1 h123
  obtain ⟨h1, h2⟩ := IntOp.andi_eq_one.1 h12
  exact ⟨fun i => real_of_abs_olt_inf x _ i (Host.reduce_andi_all _ _ _ _ _ h1 i),
    fun i => real_of_abs_olt_inf sc _ i (Host.reduce_andi_all _ _ _ _ _ h2 i),
    fun i => real_of_abs_olt_inf zr _ i (Host.reduce_andi_all _ _ _ _ _ h3 i)⟩

end Cert.QLinear

end
-- ==== Proof.RefStages.lean ====
/-
  The reference's result, stage by stage, is the layer: the shifts 4·iota select the nibble, the reshape of the
  [512, 8, 11008] nibbles to [4096, 11008] puts nibble s of packed row R at row 8R + s, and the contraction runs over
  those rows.
-/
import proofs.«423083_j23587960390015_3_alg».proof.Proof.Gen.ReferenceIdeal.Read
import proofs.«423083_j23587960390015_3_alg».proof.Proof.Spec

noncomputable section

open scoped BigOperators

namespace Cert.QLinear.Ref

open Idealize.ShloMosaic Idealize.ShloMosaic.ValueIdx Cert.ReferenceIdeal Cert.ReferenceIdeal.Read

/-- The shift amount of nibble s, the word s times the word 4, is the word 4·s. -/
theorem shift_amount (s : Fin 8) : IntOp.muli (BitVec.ofNat 32 s.val) 4#32 = BitVec.ofNat 32 (4 * s.val) := by
  fin_cases s <;> rfl

/-- The shift amount 4·s is below the word width. -/
theorem shift_amount_lt (s : Fin 8) : (BitVec.ofNat 32 (4 * s.val)).toNat < 32 := by
  fin_cases s <;> decide

/-- The word shifted right by 4·s, masked to four bits and read as a number, is nibble s of the word. -/
theorem word_nibble (w : BitVec 32) (s : Fin 8) :
    FloatOps.sitofp (F := Ideal) .f32 (IntOp.andi (IntOp.shrsi .host w (IntOp.muli (BitVec.ofNat 32 s.val) 4#32)) 15#32)
      = Cert.QLinear.nibble w s := by
  rw [shift_amount]
  unfold IntOp.shrsi
  rw [if_pos (shift_amount_lt s)]
  rfl

/-- The shift amounts, broadcast to [512, 8, 11008], read at (R, s, o): the word s times the word 4. -/
theorem v6_at (R : Fin 512) (s : Fin 8) (o : Fin 11008) :
    val_main_v6 (F := Ideal) (ix3 R s o) = IntOp.muli (BitVec.ofNat 32 s.val) 4#32 := by
  rw [val_main_v6_apply, val_main_v4_apply, val_main_v2_apply, val_main_v0_apply, val_main_v1_apply, val_main_c_apply]

/-- The packed words, broadcast to [512, 8, 11008], read at (R, s, o): the word at (R, o). -/
theorem v5_at (x1 : (⟨S512x11008, .i32⟩ : BufTy).Contents (Elt Ideal)) (R : Fin 512) (s : Fin 8) (o : Fin 11008) :
    val_main_v5 (F := Ideal) x1 (ix3 R s o) = x1 (ix2 R o) := by
  rw [val_main_v5_apply, val_main_v3_apply]
  refine congrArg x1 (funext fun a => Fin.ext ?_)
  match a with
  | ⟨0, _⟩ => rfl
  | ⟨1, _⟩ => rfl

/-- The masked shifted words read at (R, s, o). -/
theorem v9_at (x1 : (⟨S512x11008, .i32⟩ : BufTy).Contents (Elt Ideal)) (R : Fin 512) (s : Fin 8) (o : Fin 11008) :
    val_main_v9 (F := Ideal) x1 (ix3 R s o)
      = IntOp.andi (IntOp.shrsi .host (x1 (ix2 R o)) (IntOp.muli (BitVec.ofNat 32 s.val) 4#32)) 15#32 := by
  rw [val_main_v9_apply, val_main_v7_apply, v5_at, v6_at, val_main_v8_apply, val_main_c_0_apply]

/-- The reshape's index at row k, column o: packed row k / 8, nibble k % 8, column o. -/
theorem idx_v10_at (k : Fin 4096) (o : Fin 11008) :
    idx_main_v10 (ix2 k o)
      = ix3 (⟨k.val / 8, by have := k.isLt; omega⟩ : Fin 512) (⟨k.val % 8, Nat.mod_lt _ (by decide)⟩ : Fin 8) o := by
  have hk := k.isLt
  have ho := o.isLt
  refine funext fun a => Fin.ext ?_
  match a with
  | ⟨0, _⟩ => show (k.val * 11008 + o.val) / 88064 = k.val / 8; omega
  | ⟨1, _⟩ => show (k.val * 11008 + o.val) / 11008 % 8 = k.val % 8; omega
  | ⟨2, _⟩ => show (k.val * 11008 + o.val) % 11008 = o.val; omega

/-- The dequantised weight, as a number, read at row k, column o: the weight of the layer. -/
theorem v11_at (x1 : (⟨S512x11008, .i32⟩ : BufTy).Contents (Elt Ideal)) (k : Fin 4096) (o : Fin 11008) :
    val_main_v11 (F := Ideal) x1 (ix2 k o) = Cert.QLinear.wq x1 k o := by
  rw [val_main_v11_apply, val_main_v10_apply, idx_v10_at, v9_at, word_nibble]
  rfl

/-- The scale, reshaped and broadcast to [4096, 11008], read at (k, o): the scale of column o. -/
theorem v14_at (x2 : (⟨S11008x1, .f32⟩ : BufTy).Contents (Elt Ideal)) (k : Fin 4096) (o : Fin 11008) :
    val_main_v14 (F := Ideal) x2 (ix2 k o) = x2 (ix2 o (0 : Fin 1)) := by
  rw [val_main_v14_apply, val_main_v13_apply, val_main_v12_apply]
  refine congrArg x2 (funext fun a => Fin.ext ?_)
  match a with
  | ⟨0, _⟩ => show o.val / 1 = o.val; omega
  | ⟨1, _⟩ => rfl

/-- The zero point, reshaped and broadcast to [4096, 11008], read at (k, o): the zero point of column o. -/
theorem v18_at (x3 : (⟨S11008x1, .f32⟩ : BufTy).Contents (Elt Ideal)) (k : Fin 4096) (o : Fin 11008) :
    val_main_v18 (F := Ideal) x3 (ix2 k o) = x3 (ix2 o (0 : Fin 1)) := by
  rw [val_main_v18_apply, val_main_v17_apply, val_main_v16_apply]
  refine congrArg x3 (funext fun a => Fin.ext ?_)
  match a with
  | ⟨0, _⟩ => show o.val / 1 = o.val; omega
  | ⟨1, _⟩ => rfl

/-- The right operand of the contraction read at (k, o): the dequantised weight, scaled, less the zero point. -/
theorem v19_at (x1 : (⟨S512x11008, .i32⟩ : BufTy).Contents (Elt Ideal)) (x2 x3 : (⟨S11008x1, .f32⟩ : BufTy).Contents (Elt Ideal))
    (k : Fin 4096) (o : Fin 11008) :
    val_main_v19 (F := Ideal) x1 x2 x3 (ix2 k o)
      = Cert.QLinear.wq x1 k o * x2 (ix2 o (0 : Fin 1)) - x3 (ix2 o (0 : Fin 1)) := by
  rw [val_main_v19_apply, val_main_v15_apply, v11_at, v14_at, v18_at]
  rfl

/-- The bias, broadcast to [4, 2048, 11008], read at (b, t, o): the bias of column o. -/
theorem v22_at (x4 : (⟨S11008, .f32⟩ : BufTy).Contents (Elt Ideal)) (b : Fin 4) (t : Fin 2048) (o : Fin 11008) :
    val_main_v22 (F := Ideal) x4 (ix3 b t o) = x4 (ix1 o) := by
  rw [val_main_v22_apply, val_main_v21_apply]
  refine congrArg x4 (funext fun a => Fin.ext ?_)
  match a with
  | ⟨0, _⟩ => rfl

theorem ref_eq_layer (x0 : (⟨S4x2048x4096, .f32⟩ : BufTy).Contents (Elt Ideal)) (x1 : (⟨S512x11008, .i32⟩ : BufTy).Contents (Elt Ideal))
    (x2 x3 : (⟨S11008x1, .f32⟩ : BufTy).Contents (Elt Ideal)) (x4 : (⟨S11008, .f32⟩ : BufTy).Contents (Elt Ideal)) :
    val_main_v23 (F := Ideal) x0 x1 x2 x3 x4 = Cert.QLinear.layer x0 x1 x2 x3 x4 := by
  funext j
  obtain ⟨b, t, o, rfl⟩ : ∃ (b : Fin 4) (t : Fin 2048) (o : Fin 11008), j = ix3 b t o := ⟨j 0, j 1, j 2, eq_ix3 j⟩
  rw [val_main_v23_apply, val_main_v20_apply, v22_at]
  show (∑ k : Fin 4096, x0 (lidx_main_v20 (ix3 b t o) k) * val_main_v19 (F := Ideal) x1 x2 x3 (ridx_main_v20 (ix3 b t o) k)) + x4 (ix1 o)
    = (∑ i : Fin 4096, x0 (ix3 b t i) * (Cert.QLinear.wq x1 i o * x2 (ix2 o (0 : Fin 1)) - x3 (ix2 o (0 : Fin 1)))) + x4 (ix1 o)
  refine congrArg (· + x4 (ix1 o)) (Finset.sum_congr rfl fun k _ => ?_)
  have hl : lidx_main_v20 (ix3 b t o) k = ix3 b t k := funext fun a => Fin.ext (by
    match a with
    | ⟨0, _⟩ => rfl
    | ⟨1, _⟩ => rfl
    | ⟨2, _⟩ => rfl)
  have hr : ridx_main_v20 (ix3 b t o) k = ix2 k o := funext fun a => Fin.ext (by
    match a with
    | ⟨0, _⟩ => rfl
    | ⟨1, _⟩ => rfl)
  rw [hl, hr, v19_at]

end Cert.QLinear.Ref

end
-- ==== Proof.lean ====
/-
  A 4-bit dequantised linear layer: the tiled kernel against the dense reference, over the extended reals.

  The reference dequantises the packed weights (nibble s of packed row R is weight row 8R + s; W = q · scale − zero per
  output column) and contracts the input against them, plus the bias. The kernel permutes the input's K axis into
  nibble planes on the host, accumulates sixteen plane products per output tile over two K-blocks, and folds the scale
  and the zero point out of the contraction: acc · scale − rowsum · zero + bias. The two agree because, with the input,
  the scales and the zero points real numbers (the precondition), multiplication distributes over the contraction; the
  nibbles are integers. The frames of the two kernel programs are the generated ones; the reference's frame is its
  generated run with the result dropped; the idealization rewrote nothing.
-/
import proofs.«423083_j23587960390015_3_alg».proof.Defs
import proofs.«423083_j23587960390015_3_alg».proof.Proof.Gen.Kernel
import proofs.«423083_j23587960390015_3_alg».proof.Proof.Gen.Kernel.Frame
import proofs.«423083_j23587960390015_3_alg».proof.Proof.Gen.KernelIdeal
import proofs.«423083_j23587960390015_3_alg».proof.Proof.Gen.KernelIdeal.Frame
import proofs.«423083_j23587960390015_3_alg».proof.Proof.Gen.ReferenceIdeal
import proofs.«423083_j23587960390015_3_alg».proof.Proof.Gen.ReferenceIdeal.Run
import proofs.«423083_j23587960390015_3_alg».proof.Proof.Gen.ReferenceIdeal.Read
import proofs.«423083_j23587960390015_3_alg».proof.Proof.Gen.Pre_finite_inputs
import proofs.«423083_j23587960390015_3_alg».proof.Proof.KernelRun
import proofs.«423083_j23587960390015_3_alg».proof.Proof.Law
import proofs.«423083_j23587960390015_3_alg».proof.Proof.Finite
import proofs.«423083_j23587960390015_3_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the folded form of the (agreeing) arguments: the kernel by its run, the
    reference because its stages are the layer and the layer is the folded form on real inputs. -/
theorem algebraic : Cert.algebraic_KernelIdeal_ReferenceIdeal := by
  intro m ρ m' ρ' hpre hagree
  refine ⟨fun c => Cert.QLinear.foldedOut (Cert.QLinear.Kern.argX m c) (Cert.QLinear.Kern.argQ m c) (Cert.QLinear.Kern.argSc m c)
    (Cert.QLinear.Kern.argZr m c) (Cert.QLinear.Kern.argB m c), Cert.QLinear.Kern.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _ _ _).trans ((Cert.QLinear.Ref.ref_eq_layer _ _ _ _ _).trans ?_)
  rw [(hagree c).1, (hagree c).2.1, (hagree c).2.2.1, (hagree c).2.2.2.1, (hagree c).2.2.2.2]
  obtain ⟨hx, hsc, hzr⟩ := Cert.QLinear.reals_of_finite _ _ _ _ _ (hpre c)
  exact (Cert.QLinear.foldedOut_eq_layer _ _ _ _ _ hx hsc hzr).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
